-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S16384 : Shape := ⟨1, ![16384]⟩
abbrev S16384x3 : Shape := ⟨2, ![16384, 3]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S16384x3 : S_.BroadcastsInDim S16384x3 (![] : Fin 0 → Fin S16384x3.rank)
  reducesTo_S16384x3_S_d0_1 : S16384x3.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg2 : IVec S16384 32) (main_v15 : IVec S_ 1) (main_c_5 : IVec S_ 32) : IVec S_ 1 :=
  let main_v16 : IVec S16384 32 := broadcastInDim S16384 ![] bcast_S_S16384 main_c_5
  let main_v17 : IVec S16384 1 := cmpi .sge main_arg2 main_v16
  let main_c_6 : IVec S_ 32 := constantI S_ 32 4096#32
  let main_v18 : IVec S16384 32 := broadcastInDim S16384 ![] bcast_S_S16384 main_c_6
  let main_v19 : IVec S16384 1 := cmpi .slt main_arg2 main_v18
  let main_v20 : IVec S16384 1 := andi main_v17 main_v19
  let main_c_7 : IVec S_ 1 := constantI S_ 1 1#1
  let main_v21 : IVec S_ 1 := (fun x v => Host.reduce IntOp.andi x v reducesTo_S16384_S_d0 h_S_) main_v20 main_c_7
  let main_v22 : IVec S_ 1 := andi main_v15 main_v21
  main_v22

def fn {F : FTy → Type} [FloatOps F] (main_arg0 : FVec F S4096x4096 .f32) (main_arg1 : IVec S16384 32) (main_arg2 : IVec S16384 32) (main_arg3 : FVec F S16384x3 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S16384x3 .f32 := Host.absf main_arg3
  let main_cst_0 : FVec F S_ .f32 := constant S_ .f32 0x7F800000#32
  let main_v5 : FVec F S16384x3 .f32 := broadcastInDim S16384x3 ![] bcast_S_S16384x3 main_cst_0
  let main_v6 : IVec S16384x3 1 := cmpf .olt main_v4 main_v5
  let main_c_1 : IVec S_ 1 := constantI S_ 1 1#1
  let main_v7 : IVec S_ 1 := (fun x v => Host.reduce IntOp.andi x v reducesTo_S16384x3_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 32 := constantI S_ 32 4096#32
  let main_v11 : IVec S16384 32 := broadcastInDim S16384 ![] bcast_S_S16384 main_c_3
  let main_v12 : IVec S16384 1 := cmpi .slt main_arg1 main_v11
  let main_v13 : IVec S16384 1 := andi main_v10 main_v12
  let main_c_4 : IVec S_ 1 := constantI S_ 1 1#1
  let main_v14 : IVec S_ 1 := (fun x v => Host.reduce IntOp.andi x v reducesTo_S16384_S_d0 h_S_) main_v13 main_c_4
  let main_v15 : IVec S_ 1 := andi main_v8 main_v14
  let main_c_5 : IVec S_ 32 := constantI S_ 32 0#32
  fn_part1 (F := F) main_arg2 main_v15 main_c_5
-- ==== Kernel.lean ====
abbrev S4096x4096 : Shape := ⟨2, ![4096, 4096]⟩
abbrev S16384 : Shape := ⟨1, ![16384]⟩
abbrev S16384x3 : Shape := ⟨2, ![16384, 3]⟩
abbrev S_ : Shape := ⟨0, ![]⟩
abbrev S16384x1 : Shape := ⟨2, ![16384, 1]⟩
abbrev S1x16384 : Shape := ⟨2, ![1, 16384]⟩
abbrev S4096x16384 : Shape := ⟨2, ![4096, 16384]⟩
abbrev S512x4096 : Shape := ⟨2, ![512, 4096]⟩
abbrev S1x256 : Shape := ⟨2, ![1, 256]⟩
abbrev S512x256 : Shape := ⟨2, ![512, 256]⟩
abbrev S4096x256 : Shape := ⟨2, ![4096, 256]⟩

abbrev nBuf : Space → Nat
  | .hbm => 39
  | .vmem => 12
  | .smem => 0
  | _ => 0

abbrev bufTy : (tb : Table) → Fin (tcTables nBuf tb) → BufTy
  | .hbm, ⟨0, _⟩ => ⟨S4096x4096, .f32⟩
  | .hbm, ⟨1, _⟩ => ⟨S16384, .i32⟩
  | .hbm, ⟨2, _⟩ => ⟨S16384, .i32⟩
  | .hbm, ⟨3, _⟩ => ⟨S16384x3, .f32⟩
  | .hbm, ⟨4, _⟩ => ⟨S_, .f32⟩
  | .hbm, ⟨5, _⟩ => ⟨S16384, .f32⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S16384x1, .f32⟩
  | .hbm, ⟨10, _⟩ => ⟨S16384x3, .f32⟩
  | .hbm, ⟨11, _⟩ => ⟨S16384x3, .f32⟩
  | .hbm, ⟨12, _⟩ => ⟨S16384x3, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S16384x3, .f32⟩
  | .hbm, ⟨17, _⟩ => ⟨S16384x3, .f32⟩
  | .hbm, ⟨18, _⟩ => ⟨S16384x1, .f32⟩
  | .hbm, ⟨19, _⟩ => ⟨S16384, .f32⟩
  | .hbm, ⟨20, _⟩ => ⟨S16384x1, .f32⟩
  | .hbm, ⟨21, _⟩ => ⟨S16384, .f32⟩
  | .hbm, ⟨22, _⟩ => ⟨S16384, .f32⟩
  | .hbm, ⟨23, _⟩ => ⟨S16384x1, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S16384, .f32⟩
  | .hbm, ⟨29, _⟩ => ⟨S1x16384, .f32⟩
  | .hbm, ⟨30, _⟩ => ⟨S16384x1, .f32⟩
  | .hbm, ⟨31, _⟩ => ⟨S16384, .f32⟩
  | .hbm, ⟨32, _⟩ => ⟨S16384x1, .f32⟩
  | .hbm, ⟨33, _⟩ => ⟨S16384, .f32⟩
  | .hbm, ⟨34, _⟩ => ⟨S16384, .f32⟩
  | .hbm, ⟨35, _⟩ => ⟨S1x16384, .f32⟩
  | .hbm, ⟨36, _⟩ => ⟨S1x16384, .i32⟩
  | .hbm, ⟨37, _⟩ => ⟨S1x16384, .i32⟩
  | .hbm, ⟨38, _⟩ => ⟨S4096x16384, .f32⟩
  | .local _ .vmem, ⟨0, _⟩ => ⟨S512x4096, .f32⟩
  | .local _ .vmem, ⟨1, _⟩ => ⟨S512x4096, .f32⟩
  | .local _ .vmem, ⟨2, _⟩ => ⟨S1x256, .i32⟩
  | .local _ .vmem, ⟨3, _⟩ => ⟨S1x256, .i32⟩
  | .local _ .vmem, ⟨4, _⟩ => ⟨S1x256, .i32⟩
  | .local _ .vmem, ⟨5, _⟩ => ⟨S1x256, .i32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S512x256, .f32⟩
  | .local _ .vmem, ⟨11, _⟩ => ⟨S512x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 64], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  reducesTo_S16384x3_S16384_d1 : S16384x3.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x3_0_1 : S16384x1.BroadcastsInDim S16384x3 (![0, 1] : Fin 2 → Fin S16384x3.rank)
  slices_S16384x3_S16384x1_0_0 : S16384x3.Slices ![0, 0] S16384x1
  shapeCasts_S16384x1_S16384 : S16384x1.ShapeCasts S16384
  slices_S16384x3_S16384x1_0_1 : S16384x3.Slices ![0, 1] S16384x1
  slices_S16384x3_S16384x1_0_2 : S16384x3.Slices ![0, 2] S16384x1
  shapeCasts_S16384_S1x16384 : S16384.ShapeCasts S1x16384
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  iota_S4096x256_d0_w32 : S4096x256.Iotas .tc 32 [0]
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x4096_S4096x256_S512x256_1_0_0_1_n_n_wf : DotDims.WF S512x4096 S4096x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x16384.size a
  hwx0_1 : ∀ i : grid0.Coords, EltTy.bits .i32 = 32 ∨ (Rect.block (s := S1x16384) S1x256.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x16384.size a
  hwx0_2 : ∀ i : grid0.Coords, EltTy.bits .i32 = 32 ∨ (Rect.block (s := S1x16384) S1x256.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x16384.size a
  hwx0_3 : ∀ i : grid0.Coords, EltTy.bits .f32 = 32 ∨ (Rect.block (s := S1x16384) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x16384.size a
  hwx0_4 : ∀ i : grid0.Coords, EltTy.bits .f32 = 32 ∨ (Rect.block (s := S1x16384) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S4096x16384.size a
  hwx0_5 : ∀ i : grid0.Coords, EltTy.bits .f32 = 32 ∨ (Rect.block (s := S4096x16384) S512x256.size (cc0_transform_5 i) (hinb0_5 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v30) S512x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S16384 : Shape := ⟨1, ![16384]⟩
abbrev S16384x3 : Shape := ⟨2, ![16384, 3]⟩
abbrev S_ : Shape := ⟨0, ![]⟩
abbrev S16384x1 : Shape := ⟨2, ![16384, 1]⟩
abbrev S4096x16384 : Shape := ⟨2, ![4096, 16384]⟩
abbrev S1x16384 : Shape := ⟨2, ![1, 16384]⟩

abbrev nBuf : Space → Nat
  | .hbm => 60
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S16384, .i32⟩
  | .hbm, ⟨2, _⟩ => ⟨S16384, .i32⟩
  | .hbm, ⟨3, _⟩ => ⟨S16384x3, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i32⟩
  | .hbm, ⟨10, _⟩ => ⟨S16384, .i32⟩
  | .hbm, ⟨11, _⟩ => ⟨S16384x1, .i32⟩
  | .hbm, ⟨12, _⟩ => ⟨S4096x16384, .f32⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S_, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S16384x1, .i32⟩
  | .hbm, ⟨21, _⟩ => ⟨S4096x16384, .f32⟩
  | .hbm, ⟨22, _⟩ => ⟨S4096x16384, .f32⟩
  | .hbm, ⟨23, _⟩ => ⟨S_, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S16384x1, .f32⟩
  | .hbm, ⟨29, _⟩ => ⟨S16384x3, .f32⟩
  | .hbm, ⟨30, _⟩ => ⟨S16384x3, .f32⟩
  | .hbm, ⟨31, _⟩ => ⟨S16384x3, .f32⟩
  | .hbm, ⟨32, _⟩ => ⟨S_, .f32⟩
  | .hbm, ⟨33, _⟩ => ⟨S16384, .f32⟩
  | .hbm, ⟨34, _⟩ => ⟨S16384x1, .f32⟩
  | .hbm, ⟨35, _⟩ => ⟨S16384x3, .f32⟩
  | .hbm, ⟨36, _⟩ => ⟨S16384x3, .f32⟩
  | .hbm, ⟨37, _⟩ => ⟨S4096x16384, .f32⟩
  | .hbm, ⟨38, _⟩ => ⟨S16384x1, .f32⟩
  | .hbm, ⟨39, _⟩ => ⟨S16384, .f32⟩
  | .hbm, ⟨40, _⟩ => ⟨S1x16384, .f32⟩
  | .hbm, ⟨41, _⟩ => ⟨S4096x16384, .f32⟩
  | .hbm, ⟨42, _⟩ => ⟨S4096x16384, .f32⟩
  | .hbm, ⟨43, _⟩ => ⟨S16384x1, .f32⟩
  | .hbm, ⟨44, _⟩ => ⟨S16384, .f32⟩
  | .hbm, ⟨45, _⟩ => ⟨S4096x16384, .f32⟩
  | .hbm, ⟨46, _⟩ => ⟨S1x16384, .f32⟩
  | .hbm, ⟨47, _⟩ => ⟨S4096x16384, .f32⟩
  | .hbm, ⟨48, _⟩ => ⟨S4096x16384, .f32⟩
  | .hbm, ⟨49, _⟩ => ⟨S4096x16384, .f32⟩
  | .hbm, ⟨50, _⟩ => ⟨S16384x1, .f32⟩
  | .hbm, ⟨51, _⟩ => ⟨S16384, .f32⟩
  | .hbm, ⟨52, _⟩ => ⟨S_, .f32⟩
  | .hbm, ⟨53, _⟩ => ⟨S4096x16384, .f32⟩
  | .hbm, ⟨54, _⟩ => ⟨S4096x16384, .f32⟩
  | .hbm, ⟨55, _⟩ => ⟨S4096x16384, .f32⟩
  | .hbm, ⟨56, _⟩ => ⟨S1x16384, .f32⟩
  | .hbm, ⟨57, _⟩ => ⟨S4096x16384, .f32⟩
  | .hbm, ⟨58, _⟩ => ⟨S4096x16384, .f32⟩
  | .hbm, ⟨59, _⟩ => ⟨S4096x16384, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x3_S16384_d1 : S16384x3.ReducesTo [1] S16384
  h_S_ : 0 < S_.numel
  bcast_S16384x1_S16384x3_0_1 : S16384x1.BroadcastsInDim S16384x3 (![0, 1] : Fin 2 → Fin S16384x3.rank)
  slices_S16384x3_S16384x1_0_0 : S16384x3.Slices ![0, 0] S16384x1
  shapeCasts_S16384x1_S16384 : S16384x1.ShapeCasts S16384
  bcast_S16384_S1x16384_1 : S16384.BroadcastsInDim S1x16384 (![1] : Fin 1 → Fin S1x16384.rank)
  bcast_S1x16384_S4096x16384_0_1 : S1x16384.BroadcastsInDim S4096x16384 (![0, 1] : Fin 2 → Fin S4096x16384.rank)
  slices_S16384x3_S16384x1_0_1 : S16384x3.Slices ![0, 1] S16384x1
  slices_S16384x3_S16384x1_0_2 : S16384x3.Slices ![0, 2] S16384x1
  bcast_S_S4096x16384 : S_.BroadcastsInDim S4096x16384 (![] : Fin 0 → Fin S4096x16384.rank)
  gather_S4096x4096_S16384x1_S4096x16384_0_1_n_n_1_1_40961_wf : GatherDims.WF S4096x4096 S16384x1 S4096x16384 [0] [1] [] [1] [] 1 ![4096, 1]

variable [Facts₀]

def gather_S4096x4096_S16384x1_S4096x16384_0_1_n_n_1_1_40961 : GatherDims S4096x4096 S16384x1 S4096x16384 where
  offsetDims := [0]
  collapsedSliceDims := [1]
  operandBatchingDims := []
  startIndicesBatchingDims := []
  startIndexMap := [1]
  indexVectorDim := 1
  sliceSizes := ![4096, 1]
  wf := gather_S4096x4096_S16384x1_S4096x16384_0_1_n_n_1_1_40961_wf

class Facts : Prop extends Facts₀ where

variable [Facts]
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.GateBlock.lean ====
/-
  One block of the gate layer, as the kernel's body computes it, read at an entry.
  The body holds a block of 512 rows of the table (all 4096 columns), two rows of 256 gather words and two rows of 256
  coefficients. From each row of words it builds an indicator block — entry (k, q) is 1 where word q is k, else 0 — and
  multiplies the table's rows with it: at (p, q) the product is the sum over k of x[p, k]·[k = word q], written `pick`
  here. The block it stores is c1[q]·(A·B) + c2[q]·(A + B) with A, B the two picks. Changes of float format are the
  identity on the extended reals, and the product into a zero accumulator is the plain sum.
-/
import proofs.«412888_j28200755265636_1_alg».proof.Proof.Gen.KernelIdeal.Skeleton
import proofs.«412888_j28200755265636_1_alg».proof.Proof.LibPlainDot
import Idealize.ShloMosaic.Lib.Pipeline.Value
import Idealize.ShloMosaic.Lib.ValueIdx
import Idealize.ShloMosaic.Lib.ValueLayout
import Idealize.ShloMosaic.Lib.Affine

noncomputable section

namespace Cert.Gate

open Idealize.ShloMosaic Idealize.ShloMosaic.ValueIdx Cert.KernelIdeal Cert.KernelIdeal.Gen

/-- The entry of a row that a word names, written as the row's product with the word's indicator column. -/
def pick {n : Nat} (row : Fin n → EReal) (w : BitVec 32) : EReal :=
  ∑ k : Fin n, row k * (if BitVec.ofNat 32 k.val = w then (1 : EReal) else 0)

/-- A select on the equality test of two words is the if-then-else on their equality. -/
theorem sel_eq (a b : BitVec 32) (u v : EReal) : Scalar.select (IntOp.cmpi .eq a b) u v = if a = b then u else v := by
  by_cases h : a = b
  · rw [if_pos h, IntOp.cmpi_eq.2 h]; rfl
  · rw [if_neg h, eq_zero_of_ne_one (fun e => h (IntOp.cmpi_eq.1 e))]; rfl

/-- The pattern of `1.0` denotes 1. -/
theorem one_real : Ideal.ofBits .f32 0x3F800000#32 = (1 : EReal) := by
  simp [Ideal.ofBits, Ideal.ieee, -EReal.coe_mul]; norm_num

/-- A one-row block spread over the rows of a taller block reads its own entry in the same column. -/
theorem row_spread {α : Type} (c : S1x256.Idx → α) (h1 : S1x256.ShapeCasts S1x256) (h2 : S1x256.Broadcasts S512x256) (p : Fin 512) (q : Fin 256) :
    broadcastTo S512x256 (shapeCast S1x256 c h1) h2 (ix2 p q) = c (ix2 0 q) := by
  rw [shapeCast_self]
  refine broadcastTo_apply c h2 (ix2 p q) (ix2 0 q) fun a => ?_
  match a with
  | ⟨0, _⟩ => rfl
  | ⟨1, _⟩ => rfl

/-- The same over the 4096 rows of an indicator block. -/
theorem row_spread' {α : Type} (c : S1x256.Idx → α) (h1 : S1x256.ShapeCasts S1x256) (h2 : S1x256.Broadcasts S4096x256) (k : Fin 4096) (q : Fin 256) :
    broadcastTo S4096x256 (shapeCast S1x256 c h1) h2 (ix2 k q) = c (ix2 0 q) := by
  rw [shapeCast_self]
  refine broadcastTo_apply c h2 (ix2 k q) (ix2 0 q) fun a => ?_
  match a with
  | ⟨0, _⟩ => rfl
  | ⟨1, _⟩ => rfl

/-- The indicator block the body builds from a row of words: entry (k, q) is 1 where word q is k, else 0. -/
theorem indicator_apply (il : IVec S1x256 32) (h1 : S1x256.ShapeCasts S1x256) (h2 : S1x256.Broadcasts S4096x256)
    (h3 : S4096x256.Iotas .tc 32 [0]) (hb : FTy.bits .bf16 < FTy.bits .f32) (k : Fin 4096) (q : Fin 256) :
    (truncf (F := Ideal) .bf16
      (select (cmpi .eq (iota .tc S4096x256 32 [0] h3) (broadcastTo S4096x256 (shapeCast S1x256 il h1) h2))
        (broadcast S4096x256 (FloatOps.ofBits (F := Ideal) .f32 0x3F800000#32))
        (broadcast S4096x256 (FloatOps.ofBits (F := Ideal) .f32 0x00000000#32))) hb : FVec Ideal S4096x256 .bf16) (ix2 k q)
      = if BitVec.ofNat 32 k.val = il (ix2 0 q) then (1 : EReal) else 0 := by
  show Scalar.select (IntOp.cmpi .eq (iota .tc S4096x256 32 [0] h3 (ix2 k q)) (broadcastTo S4096x256 (shapeCast S1x256 il h1) h2 (ix2 k q)))
      (Ideal.ofBits .f32 0x3F800000#32) (Ideal.ofBits .f32 0x00000000#32) = _
  rw [iota_single_apply, row_spread', sel_eq, one_real, Ideal.ofBits_zero_f32]

/-- The body's product of a block of rows with an indicator block, at (p, q): the row's entry the word names. -/
theorem dot_pick (x : Vec Ideal S512x4096 .f32) (il : IVec S1x256 32) (h1 : S1x256.ShapeCasts S1x256) (h2 : S1x256.Broadcasts S4096x256)
    (h3 : S4096x256.Iotas .tc 32 [0]) (hb : FTy.bits .bf16 < FTy.bits .f32) (p : Fin 512) (q : Fin 256) :
    matmul (F := Ideal) dot_S512x4096_S4096x256_S512x256_1_0_0_1_n_n none (truncf .bf16 x hb)
      (truncf (F := Ideal) .bf16
        (select (cmpi .eq (iota .tc S4096x256 32 [0] h3) (broadcastTo S4096x256 (shapeCast S1x256 il h1) h2))
          (broadcast S4096x256 (FloatOps.ofBits (F := Ideal) .f32 0x3F800000#32))
          (broadcast S4096x256 (FloatOps.ofBits (F := Ideal) .f32 0x00000000#32))) hb)
      (constant S512x256 .f32 0x00000000#32) (ix2 p q)
      = pick (fun k => x (ix2 p k)) (il (ix2 0 q)) := by
  refine (Cert.LibPlainDot.matmul_zero_apply dot_S512x4096_S4096x256_S512x256_1_0_0_1_n_n rfl rfl rfl rfl rfl rfl none _ _ p q).trans ?_
  unfold pick
  refine Finset.sum_congr rfl fun k _ => ?_
  rw [indicator_apply]
  rfl

/-- THE BLOCK at (p, q): the two coefficients of column q against the product and the sum of the two picks of row p. -/
theorem pay_apply (x : Vec Ideal S512x4096 .f32) (il ir : Vec Ideal S1x256 .i32) (c1 c2 : Vec Ideal S1x256 .f32)
    (p : Fin 512) (q : Fin 256) :
    k0_pay1 (F := Ideal) x il ir c1 c2 (ix2 p q)
      = c1 (ix2 0 q) * (pick (fun k => x (ix2 p k)) (il (ix2 0 q)) * pick (fun k => x (ix2 p k)) (ir (ix2 0 q)))
        + c2 (ix2 0 q) * (pick (fun k => x (ix2 p k)) (il (ix2 0 q)) + pick (fun k => x (ix2 p k)) (ir (ix2 0 q))) := by
  unfold k0_pay1
  dsimp only
  simp only [addf_apply, mulf_apply, row_spread]
  rw [dot_pick x il _ _ _ _ p q, dot_pick x ir _ _ _ _ p q]

end Cert.Gate

end
-- ==== Proof.KernelArray.lean ====
/-
  From blocks to the array. The grid has 8 × 64 points; point (i, j) reads rows 512·i … 512·i + 511 of the table, columns
  256·j … 256·j + 255 of the two word rows and of the two coefficient rows, and writes block (i, j) of the 4096 × 16384
  result. Every block is the restriction of ONE function `gate` of the whole arrays — entry (r, g) depends on row r of
  the table and on column g of the four rows —, the blocks tile the result, so after the run the result array is `gate`
  of the arrays the region finds.
-/
import proofs.«412888_j28200755265636_1_alg».proof.Proof.Gen.KernelIdeal.Value
import proofs.«412888_j28200755265636_1_alg».proof.Proof.GateBlock
import Idealize.ShloMosaic.Lib.Pipeline.Value
import Idealize.ShloMosaic.Lib.ValueIdx

set_option maxRecDepth 16384

noncomputable section

namespace Cert.Gate

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ) (ρ : Dev nD → PrngReg)

/-- The gate layer as ONE function of whole arrays. -/
def gate (X : S4096x4096.Idx → EReal) (IL IR : S1x16384.Idx → BitVec 32) (C1 C2 : S1x16384.Idx → EReal) :
    S4096x16384.Idx → EReal := fun i =>
  C1 (ix2 0 (i 1)) * (pick (fun k : Fin 4096 => X (ix2 (i 0) k)) (IL (ix2 0 (i 1))) * pick (fun k : Fin 4096 => X (ix2 (i 0) k)) (IR (ix2 0 (i 1))))
    + C2 (ix2 0 (i 1)) * (pick (fun k : Fin 4096 => X (ix2 (i 0) k)) (IL (ix2 0 (i 1))) + pick (fun k : Fin 4096 => X (ix2 (i 0) k)) (IR (ix2 0 (i 1))))

/-- The body reads and writes its buffers whole: every access starts at the origin. -/
theorem hz : (![0, 0] : Fin 2 → Nat) = fun _ => 0 := funext fun a => by fin_cases a <;> rfl

/-- The block's entry at any index of the block (the two coordinates named). -/
theorem pay_at (x : Vec Ideal S512x4096 .f32) (il ir : Vec Ideal S1x256 .i32) (c1 c2 : Vec Ideal S1x256 .f32) (y : S512x256.Idx) :
    k0_pay1 (F := Ideal) x il ir c1 c2 y
      = c1 (ix2 0 (y 1)) * (pick (fun k => x (ix2 (y 0) k)) (il (ix2 0 (y 1))) * pick (fun k => x (ix2 (y 0) k)) (ir (ix2 0 (y 1))))
        + c2 (ix2 0 (y 1)) * (pick (fun k => x (ix2 (y 0) k)) (il (ix2 0 (y 1))) + pick (fun k => x (ix2 (y 0) k)) (ir (ix2 0 (y 1)))) := by
  conv_lhs => rw [eq_ix2 y]
  exact pay_apply x il ir c1 c2 (y 0) (y 1)

/-- How the windows move over the grid: the table's window follows the result's block row and stays at column block 0;
    the four one-row windows stay at row block 0 and follow the result's block column. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = win0_5.index t (1 : Fin 2)
    ∧ win0_2.index t (0 : Fin 2) = 0 ∧ win0_2.index t (1 : Fin 2) = win0_5.index t (1 : Fin 2)
    ∧ win0_3.index t (0 : Fin 2) = 0 ∧ win0_3.index t (1 : Fin 2) = win0_5.index t (1 : Fin 2)
    ∧ win0_4.index t (0 : Fin 2) = 0 ∧ win0_4.index t (1 : Fin 2) = win0_5.index t (1 : Fin 2)
    ∧ win0_5.index t (0 : Fin 2) ≤ 7 ∧ win0_5.index t (1 : Fin 2) ≤ 63 :=
  (by decide +kernel : ∀ t : Fin grid0.N, _)

/-- WHAT POINT `t` WRITES BACK is block `t` of `gate` of the arrays the region finds. -/
theorem flushed_eq (c : Dev nD) (t : Fin cfg0.N) :
    (dats m 0 c).flushed 5 t = ((cfg0.win 5).blk t).view.read (Elt Ideal)
      (gate (V m c main_arg0) (V m c main_v28) (V m c main_v29) (V m c main_v21) (V m c main_v27)) := by
  rw [Cert.KernelIdeal.Value.flushed5]
  unfold out0_5
  rw [View.canon_unit_zero hz]
  simp only [View.ld_unit_zero (S := S512x4096) hz, View.ld_unit_zero (S := S1x256) hz]
  funext j
  show k0_pay1 (iblk m c 0 t) (iblk m c 1 t) (iblk m c 2 t) (iblk m c 3 t) (iblk m c 4 t) j
     = gate (V m c main_arg0) (V m c main_v28) (V m c main_v29) (V m c main_v21) (V m c main_v27) (((cfg0.win 5).blk t).view.emb j)
  refine (pay_at (iblk m c 0 t) (iblk m c 1 t) (iblk m c 2 t) (iblk m c 3 t) (iblk m c 4 t) j).trans ?_
  unfold gate
  obtain ⟨e00, e01, e10, e11, e20, e21, e30, e31, e40, e41, b0, b1⟩ := idx_facts t
  have hj0 : (j 0).val < 512 := (j 0).isLt
  have hj1 : (j 1).val < 256 := (j 1).isLt
  have hx : (fun k : Fin 4096 => iblk m c 0 t (ix2 (j 0) k))
      = fun k : Fin 4096 => V m c main_arg0 (ix2 ((((cfg0.win 5).blk t).view.emb j) 0) k) := by
    funext k
    show V m c main_arg0 (((cfg0.win 0).blk t).view.emb (ix2 (j 0) k)) = _
    refine congrArg (V m c main_arg0) (funext fun a => Fin.ext ?_)
    match a with
    | ⟨0, _⟩ => show win0_0.index t (0 : Fin 2) * 512 + 1 * (j 0).val = win0_5.index t (0 : Fin 2) * 512 + 1 * (j 0).val; omega
    | ⟨1, _⟩ => show win0_0.index t (1 : Fin 2) * 4096 + 1 * k.val = k.val; omega
  have h1 : iblk m c 1 t (ix2 0 (j 1)) = V m c main_v28 (ix2 0 ((((cfg0.win 5).blk t).view.emb j) 1)) := by
    show V m c main_v28 (((cfg0.win 1).blk t).view.emb (ix2 0 (j 1))) = _
    refine congrArg (V m c main_v28) (funext fun a => Fin.ext ?_)
    match a with
    | ⟨0, _⟩ => show win0_1.index t (0 : Fin 2) * 1 + 1 * 0 = 0; omega
    | ⟨1, _⟩ => show win0_1.index t (1 : Fin 2) * 256 + 1 * (j 1).val = win0_5.index t (1 : Fin 2) * 256 + 1 * (j 1).val; omega
  have h2 : iblk m c 2 t (ix2 0 (j 1)) = V m c main_v29 (ix2 0 ((((cfg0.win 5).blk t).view.emb j) 1)) := by
    show V m c main_v29 (((cfg0.win 2).blk t).view.emb (ix2 0 (j 1))) = _
    refine congrArg (V m c main_v29) (funext fun a => Fin.ext ?_)
    match a with
    | ⟨0, _⟩ => show win0_2.index t (0 : Fin 2) * 1 + 1 * 0 = 0; omega
    | ⟨1, _⟩ => show win0_2.index t (1 : Fin 2) * 256 + 1 * (j 1).val = win0_5.index t (1 : Fin 2) * 256 + 1 * (j 1).val; omega
  have h3 : iblk m c 3 t (ix2 0 (j 1)) = V m c main_v21 (ix2 0 ((((cfg0.win 5).blk t).view.emb j) 1)) := by
    show V m c main_v21 (((cfg0.win 3).blk t).view.emb (ix2 0 (j 1))) = _
    refine congrArg (V m c main_v21) (funext fun a => Fin.ext ?_)
    match a with
    | ⟨0, _⟩ => show win0_3.index t (0 : Fin 2) * 1 + 1 * 0 = 0; omega
    | ⟨1, _⟩ => show win0_3.index t (1 : Fin 2) * 256 + 1 * (j 1).val = win0_5.index t (1 : Fin 2) * 256 + 1 * (j 1).val; omega
  have h4 : iblk m c 4 t (ix2 0 (j 1)) = V m c main_v27 (ix2 0 ((((cfg0.win 5).blk t).view.emb j) 1)) := by
    show V m c main_v27 (((cfg0.win 4).blk t).view.emb (ix2 0 (j 1))) = _
    refine congrArg (V m c main_v27) (funext fun a => Fin.ext ?_)
    match a with
    | ⟨0, _⟩ => show win0_4.index t (0 : Fin 2) * 1 + 1 * 0 = 0; omega
    | ⟨1, _⟩ => show win0_4.index t (1 : Fin 2) * 256 + 1 * (j 1).val = win0_5.index t (1 : Fin 2) * 256 + 1 * (j 1).val; omega
  rw [hx, h1, h2, h3, h4]

/-- An index of the result array is in point `t`'s block iff each coordinate is in the block's range on its axis. -/
theorem mem_blk (t : Fin cfg0.N) (i : S4096x16384.Idx) :
    i ∈ ((cfg0.win 5).blk t).view.set ↔ ∀ a : Fin 2, win0_5.index t a * S512x256.size a ≤ (i a).val ∧ (i a).val < win0_5.index t a * S512x256.size a + S512x256.size a := by
  show i ∈ ((View.whole main_v30).slice (win0_5.rect t)).set ↔ _
  rw [View.set_slice_whole, Rect.mem_set_unit]
  exact Iff.rfl

/-- The grid runs over the result's blocks row by row: point `t` writes block (t / 64, t % 64). -/
theorem idx_grid : ∀ t : Fin cfg0.N, win0_5.index t (0 : Fin 2) = t.val / 64 ∧ win0_5.index t (1 : Fin 2) = t.val % 64 :=
  (by decide +kernel : ∀ t : Fin grid0.N, _)

/-- Every index of the result array lies in some point's block: the blocks tile the array. -/
theorem cover (i : S4096x16384.Idx) : ∃ t : Fin cfg0.N, (cfg0.win 5).flush t = true ∧ i ∈ ((cfg0.win 5).blk t).view.set := by
  have hi0 : (i 0).val < 4096 := (i 0).isLt
  have hi1 : (i 1).val < 16384 := (i 1).isLt
  have hN : cfg0.N = 512 := N_0
  let t : Fin cfg0.N := ⟨(i 0).val / 512 * 64 + (i 1).val / 256, by omega⟩
  obtain ⟨q0, q1⟩ := idx_grid t
  have tv : t.val = (i 0).val / 512 * 64 + (i 1).val / 256 := rfl
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 256 ≤ (i 1).val ∧ (i 1).val < win0_5.index t (1 : Fin 2) * 256 + 256; omega

/-- So the result array ends holding the gate layer of the arrays the region finds. -/
theorem final (c : Dev nD) : (dats m 0 c).arrAt 5 cfg0.N
    = gate (V m c main_arg0) (V m c main_v28) (V m c main_v29) (V m c main_v21) (V m c main_v27) :=
  (dats m 0 c).arrAt_eq_of_cover 5 _ (fun t _ => flushed_eq m c t) cover

end Cert.Gate

end
-- ==== Proof.Coefficients.lean ====
/-
  What the region finds in the four one-row arrays. The host lays the two index vectors out as rows unchanged, and
  computes from the softmax weights W (16384 × 3) the two coefficient rows c1 = W[:, 0] − W[:, 1] − 2·W[:, 2] and
  c2 = W[:, 1] + W[:, 2]; at gate g they read the three weights of that gate.
-/
import proofs.«412888_j28200755265636_1_alg».proof.Proof.KernelArray
import proofs.«412888_j28200755265636_1_alg».proof.Proof.Gen.ReferenceIdeal.Read
import Idealize.ShloMosaic.Lib.StableHlo.Run
import Idealize.ShloMosaic.Lib.Pipeline.Value

set_option maxRecDepth 16384

noncomputable section

namespace Cert.Gate

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- One column of the three weights of every gate, as a vector over the gates. -/
def wcol (off : Fin 2 → Nat) (h : S16384x3.Slices off S16384x1) (W : S16384x3.Idx → EReal) : S16384.Idx → EReal :=
  shapeCast S16384 (extractStridedSlice S16384x1 off W h) shapeCasts_S16384x1_S16384

/-- The coefficient of the product of the two gate inputs, as the row the kernel is handed: w0 − w1 − 2·w2. -/
def c1row (W : S16384x3.Idx → EReal) : S1x16384.Idx → EReal :=
  shapeCast S1x16384
    (subf (F := Ideal) (φ := .f32) (subf (F := Ideal) (φ := .f32) (wcol ![0, 0] slices_S16384x3_S16384x1_0_0 W) (wcol ![0, 1] slices_S16384x3_S16384x1_0_1 W))
      (mulf (F := Ideal) (φ := .f32) (broadcastInDim S16384 ![] bcast_S_S16384 (constant (F := Ideal) S_ .f32 0x40000000#32)) (wcol ![0, 2] slices_S16384x3_S16384x1_0_2 W)))
    shapeCasts_S16384_S1x16384

/-- The coefficient of their sum: w1 + w2. -/
def c2row (W : S16384x3.Idx → EReal) : S1x16384.Idx → EReal :=
  shapeCast S1x16384
    (addf (F := Ideal) (φ := .f32) (wcol ![0, 1] slices_S16384x3_S16384x1_0_1 W) (wcol ![0, 2] slices_S16384x3_S16384x1_0_2 W))
    shapeCasts_S16384_S1x16384

/-- The region finds the first coefficient row at `c1row` of the logits' softmax. -/
theorem V_c1 (c : Dev nD) : (V m c main_v21 : S1x16384.Idx → EReal)
    = c1row (Cert.ReferenceIdeal.Read.val_main_v25 (F := Ideal) (m ((c : Thread nD τ).loc main_arg3))) := by
  dsimp only [V, hostOps0]
  after_results_simp
  rfl

/-- … the second at `c2row` of it. -/
theorem V_c2 (c : Dev nD) : (V m c main_v27 : S1x16384.Idx → EReal)
    = c2row (Cert.ReferenceIdeal.Read.val_main_v25 (F := Ideal) (m ((c : Thread nD τ).loc main_arg3))) := by
  dsimp only [V, hostOps0]
  after_results_simp
  rfl

/-- … and the two rows of gather words at the index vectors laid out as rows. -/
theorem V_il (c : Dev nD) : (V m c main_v28 : S1x16384.Idx → BitVec 32)
    = shapeCast S1x16384 (m ((c : Thread nD τ).loc main_arg1)) shapeCasts_S16384_S1x16384 := by
  dsimp only [V, hostOps0]
  after_results_simp
  rfl

theorem V_ir (c : Dev nD) : (V m c main_v29 : S1x16384.Idx → BitVec 32)
    = shapeCast S1x16384 (m ((c : Thread nD τ).loc main_arg2)) shapeCasts_S16384_S1x16384 := by
  dsimp only [V, hostOps0]
  after_results_simp
  rfl

/-- A column of the weights at gate g is the weight at (g, that column). -/
theorem wcol_apply (off : Fin 2 → Nat) (h : S16384x3.Slices off S16384x1) (W : S16384x3.Idx → EReal) (g : Fin 16384) (k : Fin 3)
    (hk : k.val = off 1) (h0 : off 0 = 0) : wcol off h W (ix1 g) = W (ix2 g k) := by
  unfold wcol
  rw [shapeCast_apply _ shapeCasts_S16384x1_S16384 (ix1 g) (ix2 g (0 : Fin 1))
    (by rewrite [Shape.rowMajor_val_two, Shape.rowMajor_val_one]; show g.val * 1 + 0 = g.val; omega)]
  refine extractStridedSlice_apply off W h (ix2 g (0 : Fin 1)) (ix2 g k) fun a => ?_
  match a with
  | ⟨0, _⟩ => show g.val = off 0 + g.val; omega
  | ⟨1, _⟩ => show k.val = off 1 + 0; omega

/-- A vector over the gates laid out as one row reads the same entry. -/
theorem row_apply {α : Type} (v : S16384.Idx → α) (g : Fin 16384) :
    shapeCast S1x16384 v shapeCasts_S16384_S1x16384 (ix2 (0 : Fin 1) g) = v (ix1 g) :=
  shapeCast_apply v shapeCasts_S16384_S1x16384 (ix2 (0 : Fin 1) g) (ix1 g)
    (by rewrite [Shape.rowMajor_val_one, Shape.rowMajor_val_two]; show g.val = 0 * 16384 + g.val; omega)

/-- The first coefficient at gate g. -/
theorem c1row_apply (W : S16384x3.Idx → EReal) (g : Fin 16384) :
    c1row W (ix2 (0 : Fin 1) g) = (W (ix2 g 0) - W (ix2 g 1)) - Ideal.ofBits .f32 0x40000000#32 * W (ix2 g 2) := by
  unfold c1row
  rw [row_apply]
  show (wcol _ _ W (ix1 g) - wcol _ _ W (ix1 g)) - Ideal.ofBits .f32 0x40000000#32 * wcol _ _ W (ix1 g) = _
  rw [wcol_apply ![0, 0] _ W g 0 rfl rfl, wcol_apply ![0, 1] _ W g 1 rfl rfl, wcol_apply ![0, 2] _ W g 2 rfl rfl]

/-- The second coefficient at gate g. -/
theorem c2row_apply (W : S16384x3.Idx → EReal) (g : Fin 16384) :
    c2row W (ix2 (0 : Fin 1) g) = W (ix2 g 1) + W (ix2 g 2) := by
  unfold c2row
  rw [row_apply]
  show wcol _ _ W (ix1 g) + wcol _ _ W (ix1 g) = _
  rw [wcol_apply ![0, 1] _ W g 1 rfl rfl, wcol_apply ![0, 2] _ W g 2 rfl rfl]

end Cert.Gate

end
-- ==== Proof.LibGatherColsCol.lean ====
/-
  A two-axis table gathered along its SECOND axis by a COLUMN of start indices, read at an index.

  `x[:, idx]` of `x : [B, N]` at `idx : [G]` lowers to a gather whose start indices are the `[G, 1]` column of `idx`
  and whose result `[B, G]` has one offset axis (the first, running over the table's first axis); the table's second
  axis is collapsed and indexed by the start index. The result element at `(b, g)` is the table's element at row `b`
  and column `idx[g, 0]`, read as a signed integer and clamped into `[0, N - 1]`.
-/
import Idealize.ShloMosaic.Lib.ValueIdx

noncomputable section

namespace Idealize.ShloMosaic.GatherColsCol

open Idealize.ShloMosaic Idealize.ShloMosaic.ValueIdx

variable {α : Type}

/-- The clamped start position a signed word names on an axis of extent `N` (slices of one element). -/
abbrev clampPos {w : Nat} (N : Nat) (hN : 0 < N) (v : BitVec w) : Fin N := ⟨min v.toInt.toNat (N - 1), by omega⟩

/-- The dimension numbers of a take of whole columns by a column of start indices. -/
abbrev colDims (B N G : Nat)
    (wf : GatherDims.WF ⟨2, ![B, N]⟩ ⟨2, ![G, 1]⟩ ⟨2, ![B, G]⟩ [0] [1] [] [1] [] 1 ![B, 1]) :
    GatherDims ⟨2, ![B, N]⟩ ⟨2, ![G, 1]⟩ ⟨2, ![B, G]⟩ where
  offsetDims := [0]
  collapsedSliceDims := [1]
  operandBatchingDims := []
  startIndicesBatchingDims := []
  startIndexMap := [1]
  indexVectorDim := 1
  sliceSizes := ![B, 1]
  wf := wf

/-- On the table's first axis the operand index is the result's offset coordinate. -/
theorem col_axis0 {B N G w : Nat}
    (wf : GatherDims.WF ⟨2, ![B, N]⟩ ⟨2, ![G, 1]⟩ ⟨2, ![B, G]⟩ [0] [1] [] [1] [] 1 ![B, 1])
    (idx : IVec ⟨2, ![G, 1]⟩ w) (j : (⟨2, ![B, G]⟩ : Shape).Idx) :
    ((colDims B N G wf).operandIdx j idx 0).val = (j 0).val := by
  show (colDims B N G wf).start j idx 0 + (colDims B N G wf).batchCoord j 0 + (colDims B N G wf).offCoord j 0 = _
  rw [GatherDims.batchCoord_eq_zero _ _ _ List.not_mem_nil]
  unfold GatherDims.start
  rw [dif_neg (show ¬ (0 : Fin 2) ∈ (colDims B N G wf).startIndexMap from
    fun h => absurd (List.mem_singleton.mp h) (by decide : ¬ (0 : Fin 2) = 1))]
  unfold GatherDims.offCoord
  rw [dif_pos (show (0 : Fin 2) ∈ (colDims B N G wf).sKept from
    (GatherDims.mem_sKept _ _).mpr ⟨fun h => absurd (List.mem_singleton.mp h) (by decide : ¬ (0 : Fin 2) = 1), List.not_mem_nil⟩)]
  simp only [Nat.zero_add, Nat.add_zero]
  rfl

/-- On the indexed axis it is the clamped start index. -/
theorem col_axis1 {B N G w : Nat}
    (wf : GatherDims.WF ⟨2, ![B, N]⟩ ⟨2, ![G, 1]⟩ ⟨2, ![B, G]⟩ [0] [1] [] [1] [] 1 ![B, 1])
    (idx : IVec ⟨2, ![G, 1]⟩ w) (j : (⟨2, ![B, G]⟩ : Shape).Idx) :
    ((colDims B N G wf).operandIdx j idx 1).val
      = min (idx (ix2 (j 1) (0 : Fin 1))).toInt.toNat (N - 1) := by
  show (colDims B N G wf).start j idx 1 + (colDims B N G wf).batchCoord j 1 + (colDims B N G wf).offCoord j 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colDims B N G wf).startIndexMap from List.mem_singleton.mpr rfl)]
  have hsi : (colDims B N G wf).siIdx j ⟨List.idxOf (1 : Fin 2) (colDims B N G wf).startIndexMap,
      List.idxOf_lt_length_iff.2 (List.mem_singleton.mpr rfl)⟩ = ix2 (j 1) (0 : Fin 1) := by
    funext b; refine Fin.ext ?_
    match b with
    | ⟨0, _⟩ => rfl
    | ⟨1, _⟩ => rfl
  rw [hsi]
  rfl

/-- THE TAKE OF COLUMNS AT `(b, g)`: the table at row `b` and column `idx[g, 0]` (signed, clamped). -/
theorem gather_col_apply {B N G w : Nat} (hN : 0 < N)
    (wf : GatherDims.WF ⟨2, ![B, N]⟩ ⟨2, ![G, 1]⟩ ⟨2, ![B, G]⟩ [0] [1] [] [1] [] 1 ![B, 1])
    (x : (⟨2, ![B, N]⟩ : Shape).Idx → α) (idx : IVec ⟨2, ![G, 1]⟩ w) (j : (⟨2, ![B, G]⟩ : Shape).Idx) :
    Host.gather (colDims B N G wf) x idx j
      = x (ix2 (j 0) (clampPos N hN (idx (ix2 (j 1) (0 : Fin 1))))) := by
  unfold Host.gather
  refine congrArg x (funext fun a => Fin.ext ?_)
  match a with
  | ⟨0, _⟩ => exact col_axis0 wf idx j
  | ⟨1, _⟩ => exact col_axis1 wf idx j

end Idealize.ShloMosaic.GatherColsCol

end
-- ==== Proof.RefEntry.lean ====
/-
  The reference at an entry. At (b, g) the reference's result is
  w0·(A·B) + w1·((A + B) − A·B) + w2·((A + B) − 2·(A·B)), with w = the softmax weights of gate g and A, B the two
  gathered entries of row b. Each gather wraps a negative index (adds the extent) and clamps into the axis; a word that
  is a position of the axis passes both unchanged, so the gather reads the table at that column.
-/
import proofs.«412888_j28200755265636_1_alg».proof.Proof.Gen.ReferenceIdeal.Read
import proofs.«412888_j28200755265636_1_alg».proof.Proof.LibGatherColsCol
import Idealize.ShloMosaic.PureOps.Ideal.Laws
import Idealize.ShloMosaic.Lib.ValueIdx
import Idealize.ShloMosaic.Lib.Affine
import Idealize.ShloMosaic.Lib.StableHlo.Predicate

noncomputable section

namespace Cert.Gate

open Idealize.ShloMosaic Idealize.ShloMosaic.ValueIdx
open Cert.ReferenceIdeal Cert.ReferenceIdeal.Gen Cert.ReferenceIdeal.Read

/-- THE REFERENCE AT AN ENTRY: the mixture of the three soft gates over the two gathered entries. -/
theorem ref_entry (x : FVec Ideal S4096x4096 .f32) (il ir : IVec S16384 32) (α : FVec Ideal S16384x3 .f32) (i : S4096x16384.Idx) :
    val_main_v47 (F := Ideal) x il ir α i
      = (val_main_v25 (F := Ideal) α (ix2 (i 1) 0) * (val_main_v6 (F := Ideal) x il i * val_main_v13 (F := Ideal) x ir i)
          + val_main_v25 (F := Ideal) α (ix2 (i 1) 1) * ((val_main_v6 (F := Ideal) x il i + val_main_v13 (F := Ideal) x ir i) - val_main_v6 (F := Ideal) x il i * val_main_v13 (F := Ideal) x ir i))
        + val_main_v25 (F := Ideal) α (ix2 (i 1) 2) * ((val_main_v6 (F := Ideal) x il i + val_main_v13 (F := Ideal) x ir i)
            - Ideal.ofBits .f32 0x40000000#32 * (val_main_v6 (F := Ideal) x il i * val_main_v13 (F := Ideal) x ir i)) := by
  have e0 : idx_main_v27 (idx_main_v28 (idx_main_v29 (idx_main_v30 i))) = ix2 (i 1) 0 :=
    funext fun a => Fin.ext (by match a with | ⟨0, _⟩ => exact Nat.div_one _ | ⟨1, _⟩ => rfl)
  have e1 : idx_main_v32 (idx_main_v33 (idx_main_v35 (idx_main_v36 i))) = ix2 (i 1) 1 :=
    funext fun a => Fin.ext (by match a with | ⟨0, _⟩ => exact Nat.div_one _ | ⟨1, _⟩ => rfl)
  have e2 : idx_main_v39 (idx_main_v40 (idx_main_v44 (idx_main_v45 i))) = ix2 (i 1) 2 :=
    funext fun a => Fin.ext (by match a with | ⟨0, _⟩ => exact Nat.div_one _ | ⟨1, _⟩ => rfl)
  rw [val_main_v47_apply, val_main_v38_apply, val_main_v46_apply, val_main_v31_apply, val_main_v37_apply,
    val_main_v30_apply, val_main_v29_apply, val_main_v28_apply, val_main_v27_apply,
    val_main_v36_apply, val_main_v35_apply, val_main_v33_apply, val_main_v32_apply,
    val_main_v45_apply, val_main_v44_apply, val_main_v40_apply, val_main_v39_apply,
    val_main_v34_apply, val_main_v43_apply, val_main_v42_apply, val_main_v41_apply, val_main_cst_5_apply,
    val_main_v26_apply, val_main_v14_apply, e0, e1, e2]
  rfl

/-- The word of a position on an axis of extent 4096 is non-negative read signed: the reference's wrap of negative
    indices (add the extent where the word is below zero) leaves it alone. -/
theorem wrap_id (j : Fin 4096) :
    Scalar.select (IntOp.cmpi .slt (BitVec.ofNat 32 j.val) 0#32) (IntOp.addi (BitVec.ofNat 32 j.val) 4096#32) (BitVec.ofNat 32 j.val)
      = BitVec.ofNat 32 j.val := by
  have hj := j.isLt
  have h : IntOp.cmpi .slt (BitVec.ofNat 32 j.val) 0#32 = 0#1 := eq_zero_of_ne_one fun e => by
    rw [IntOp.cmpi_slt, StableHlo.Predicate.toInt_ofNat_small _ (by omega)] at e
    have e0 : (0#32 : BitVec 32).toInt = 0 := by decide
    rw [e0] at e
    omega
  rw [h]; rfl

/-- … and the gather's clamp into the axis leaves it alone too. -/
theorem clamp_id (j : Fin 4096) :
    GatherColsCol.clampPos 4096 (by decide) (BitVec.ofNat 32 j.val) = j := by
  have hj := j.isLt
  refine Fin.ext ?_
  show min (BitVec.ofNat 32 j.val).toInt.toNat (4096 - 1) = j.val
  rw [StableHlo.Predicate.toInt_ofNat_small _ (by omega)]
  simp only [Int.toNat_natCast]
  omega

/-- Both together, for any word that is a position's. -/
theorem wrap_clamp_id (j : Fin 4096) (w : BitVec 32) (hw : w = BitVec.ofNat 32 j.val) :
    GatherColsCol.clampPos 4096 (by decide) (Scalar.select (IntOp.cmpi .slt w 0#32) (IntOp.addi w 4096#32) w) = j := by
  subst hw; rw [wrap_id, clamp_id]

/-- The reference's first gather at (b, g), where the word of gate g names column j: the table at (b, j). -/
theorem gather_l (x : FVec Ideal S4096x4096 .f32) (il : IVec S16384 32) (i : S4096x16384.Idx) (j : Fin 4096)
    (hj : il (ix1 (i 1)) = BitVec.ofNat 32 j.val) :
    val_main_v6 (F := Ideal) x il i = x (ix2 (i 0) j) := by
  unfold val_main_v6
  refine (GatherColsCol.gather_col_apply (N := 4096) (by decide) gather_S4096x4096_S16384x1_S4096x16384_0_1_n_n_1_1_40961_wf x _ i).trans ?_
  rw [val_main_v5_apply, val_main_v4_apply, val_main_v1_apply, val_main_v3_apply, val_main_v0_apply, val_main_v2_apply,
    val_main_c_apply, val_main_c_0_apply]
  have e : idx_main_v5 (ix2 (i 1) (0 : Fin 1)) = ix1 (i 1) := funext fun a => Fin.ext (by match a with | ⟨0, _⟩ => rfl)
  rw [e]
  exact congrArg (fun q => x (ix2 (i 0) q)) (wrap_clamp_id j _ hj)

/-- The second gather likewise. -/
theorem gather_r (x : FVec Ideal S4096x4096 .f32) (ir : IVec S16384 32) (i : S4096x16384.Idx) (j : Fin 4096)
    (hj : ir (ix1 (i 1)) = BitVec.ofNat 32 j.val) :
    val_main_v13 (F := Ideal) x ir i = x (ix2 (i 0) j) := by
  unfold val_main_v13
  refine (GatherColsCol.gather_col_apply (N := 4096) (by decide) gather_S4096x4096_S16384x1_S4096x16384_0_1_n_n_1_1_40961_wf x _ i).trans ?_
  rw [val_main_v12_apply, val_main_v11_apply, val_main_v8_apply, val_main_v10_apply, val_main_v7_apply, val_main_v9_apply,
    val_main_c_1_apply, val_main_c_2_apply]
  have e : idx_main_v12 (ix2 (i 1) (0 : Fin 1)) = ix1 (i 1) := funext fun a => Fin.ext (by match a with | ⟨0, _⟩ => rfl)
  rw [e]
  exact congrArg (fun q => x (ix2 (i 0) q)) (wrap_clamp_id j _ hj)

end Cert.Gate

end
-- ==== Proof.Softmax.lean ====
/-
  The softmax weights are real numbers. For a gate with real logits a0, a1, a2: the row maximum M (taken from -∞) is a
  real number, each exp(ak − M) is a positive real, their sum from 0 is a positive real, and each quotient
  exp(ak − M) / Σ exp(ai − M) is the product with a real reciprocal: a real number. Both programs compute the weights by
  this same chain of host operations, so the reference's stage for it serves as the definition on both sides.
-/
import proofs.«412888_j28200755265636_1_alg».proof.Proof.Gen.ReferenceIdeal.Read
import Idealize.ShloMosaic.PureOps.Ideal.Laws
import Idealize.ShloMosaic.Lib.ValueIdx

noncomputable section

namespace Cert.Gate

open Idealize.ShloMosaic Idealize.ShloMosaic.ValueIdx
open Cert.ReferenceIdeal Cert.ReferenceIdeal.Gen Cert.ReferenceIdeal.Read

/-- The pattern of `-inf` denotes -∞. -/
theorem neg_inf_bot : Ideal.ofBits .f32 0xFF800000#32 = (⊥ : EReal) := by
  simp [Ideal.ofBits, Ideal.ieee]

/-- The maximum of finitely many real numbers, at least one, taken from -∞, is a real number. -/
theorem fold_max_real {ι : Type} (s : Finset ι) (f : ι → EReal) (hs : s.Nonempty)
    (hf : ∀ k ∈ s, ∃ r : ℝ, f k = (r : EReal)) : ∃ r : ℝ, s.fold max (⊥ : EReal) f = (r : EReal) := by
  induction hs using Finset.Nonempty.cons_induction with
  | singleton a =>
    obtain ⟨r, hr⟩ := hf a (Finset.mem_singleton_self a)
    exact ⟨r, by rw [Finset.fold_singleton, hr, max_eq_left bot_le]⟩
  | cons a s ha hs ih =>
    obtain ⟨r, hr⟩ := hf a (Finset.mem_cons_self a s)
    obtain ⟨r', hr'⟩ := ih (fun k hk => hf k (Finset.mem_cons.2 (Or.inr hk)))
    exact ⟨max r r', by rw [Finset.fold_cons, hr, hr']; exact (EReal.coe_strictMono.monotone.map_max).symm⟩

/-- The largest logit of a gate is a real number when the logits are. -/
theorem rowmax_real (α : FVec Ideal S16384x3 .f32) (hα : ∀ i, ∃ r : ℝ, α i = (r : EReal)) (g : S16384.Idx) :
    ∃ r : ℝ, val_main_v17 (F := Ideal) α g = (r : EReal) := by
  rw [val_main_v17_apply, val_main_v16_apply, val_main_cst_3_apply]
  unfold val_main_v15
  have hR : S16384x3.Reduces [1] S16384 := by decide
  rw [Host.reduce_eq_fold_single FloatOps.maximumf α _ reducesTo_S16384x3_S16384_d1 hR h_S_ g]
  rw [val_main_cst_apply]
  show ∃ r : ℝ, max (Ideal.ofBits .f32 0xFF800000#32) (Finset.univ.fold max (Ideal.ofBits .f32 0xFF800000#32) (α ∘ hR.lift g)) = (r : EReal)
  rw [neg_inf_bot]
  obtain ⟨r, hr⟩ := fold_max_real (Finset.univ : Finset (Fin (S16384x3.size 1))) (α ∘ hR.lift g) ⟨⟨0, by decide⟩, Finset.mem_univ _⟩ (fun k _ => hα _)
  exact ⟨r, by rw [hr, max_eq_right bot_le]⟩

/-- The softmax weights of a gate are real numbers when the logits are: each is a real exponential over a positive real sum. -/
theorem weights_real (α : FVec Ideal S16384x3 .f32) (hα : ∀ i, ∃ r : ℝ, α i = (r : EReal)) (g : Fin 16384) (j : Fin 3) :
    ∃ r : ℝ, val_main_v25 (F := Ideal) α (ix2 g j) = (r : EReal) := by
  obtain ⟨M, hM⟩ := rowmax_real α hα (ix1 g)
  -- each exponential of the row is a positive real
  have hE : ∀ k : Fin 3, val_main_v21 (F := Ideal) α (ix2 g k) = ((Real.exp ((Classical.choose (hα (ix2 g k))) - M) : ℝ) : EReal) := by
    intro k
    rw [val_main_v21_apply, val_main_v20_apply, val_main_v19_apply, val_main_v18_apply]
    have e : idx_main_v18 (idx_main_v19 (ix2 g k)) = ix1 g := funext fun a => Fin.ext (by match a with | ⟨0, _⟩ => rfl)
    rw [e, hM]
    conv_lhs => rw [Classical.choose_spec (hα (ix2 g k))]
    simp only [Ideal.hostUnary_exp_def, Ideal.subf_def]
    rw [← EReal.coe_sub, Ideal.exp_coe]
  -- their sum, from zero, is a positive real
  have hS : val_main_v22 (F := Ideal) α (ix1 g)
      = ((∑ k : Fin 3, Real.exp ((Classical.choose (hα (ix2 g k))) - M) : ℝ) : EReal) := by
    rw [val_main_v22_apply, val_main_cst_4_apply]
    have e : ∀ k : Fin 3, idx_main_v22 (ix1 g) k = ix2 g k := fun k => funext fun a => Fin.ext (by match a with | ⟨0, _⟩ => rfl | ⟨1, _⟩ => rfl)
    simp only [e, hE, Ideal.ofBits_def, Ideal.ofBits_zero_f32, zero_add, Fin.sum_univ_three, EReal.coe_add]
  have hpos : (0 : ℝ) < ∑ k : Fin 3, Real.exp ((Classical.choose (hα (ix2 g k))) - M) :=
    Finset.sum_pos (fun k _ => Real.exp_pos _) ⟨0, Finset.mem_univ _⟩
  rw [val_main_v25_apply, val_main_v24_apply, val_main_v23_apply]
  have e : idx_main_v23 (idx_main_v24 (ix2 g j)) = ix1 g := funext fun a => Fin.ext (by match a with | ⟨0, _⟩ => rfl)
  rw [e, hS, hE]
  simp only [Ideal.hostDivf_def]
  rw [Ideal.div_coe (ne_of_gt hpos), ← EReal.coe_mul]
  exact ⟨_, rfl⟩

end Cert.Gate

end
-- ==== Proof.GateLaw.lean ====
/-
  The two pure facts the bridge rests on: the regrouping law of the soft-gate mixture over the reals, and that a sum
  against an indicator keeps exactly one term.
-/
import Idealize.ShloMosaic.PureOps.Ideal
import Idealize.ShloMosaic.Lib.ValueIdx

noncomputable section

namespace Cert.Gate

open Idealize.ShloMosaic

/-- THE LAW that joins the two programs, over the reals: the soft AND / OR / XOR mixture
    `w0·ab + w1·(s − ab) + w2·(s − t·ab)` regrouped by powers of the gate inputs, `(w0 − w1 − t·w2)·ab + (w1 + w2)·s`. -/
theorem gate_law (w0 w1 w2 a b t : ℝ) :
    (((w0 : EReal) - (w1 : EReal)) - (t : EReal) * (w2 : EReal)) * ((a : EReal) * (b : EReal)) + ((w1 : EReal) + (w2 : EReal)) * ((a : EReal) + (b : EReal))
      = ((w0 : EReal) * ((a : EReal) * (b : EReal)) + (w1 : EReal) * (((a : EReal) + (b : EReal)) - (a : EReal) * (b : EReal)))
        + (w2 : EReal) * (((a : EReal) + (b : EReal)) - (t : EReal) * ((a : EReal) * (b : EReal))) := by
  norm_cast
  ring_nf

/-- The entry a position's word names, as the product with the indicator column: only the named term survives. -/
theorem sum_indicator {n : Nat} (hn : n ≤ 2 ^ 32) (row : Fin n → EReal) (j : Fin n) :
    ∑ k : Fin n, row k * (if BitVec.ofNat 32 k.val = BitVec.ofNat 32 j.val then (1 : EReal) else 0) = row j := by
  have h : ∀ k : Fin n, (BitVec.ofNat 32 k.val = BitVec.ofNat 32 j.val) ↔ k = j := fun k => by
    constructor
    · intro e
      have := congrArg BitVec.toNat e
      simp only [BitVec.toNat_ofNat] at this
      have hk := k.isLt; have hj := j.isLt
      rw [Nat.mod_eq_of_lt (by omega), Nat.mod_eq_of_lt (by omega)] at this
      exact Fin.ext this
    · rintro rfl; rfl
  simp only [h, mul_ite, mul_one, mul_zero, Finset.sum_ite_eq', Finset.mem_univ, if_true]

end Cert.Gate

end
-- ==== Proof.Domain.lean ====
/-
  The stated domain, read out of the precondition. The precondition says, of the four arguments: every entry of the
  table and of the logits has absolute value below +∞, and every gather word w of either index vector satisfies
  0 ≤ w < 4096 as a signed integer. Read element by element: the table's and the logits' entries are real numbers,
  and each gather word is the word of a position on the table's column axis (extent 4096).
-/
import proofs.«412888_j28200755265636_1_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.PreFacts

open Idealize.ShloMosaic Idealize.ShloMosaic.ValueIdx Cert.Pre_finite_inputs Cert.Pre_finite_inputs.Gen

/-- The index type of a rank-0 array has one element. -/
instance : Subsingleton S_.Idx := ⟨fun a b => funext fun d => d.elim0⟩

/-- The pattern of `2.0` denotes the real number 2. -/
theorem two_real : Ideal.ofBits .f32 0x40000000#32 = ((2 : ℝ) : EReal) := by
  simp [Ideal.ofBits, Ideal.ieee, -EReal.coe_mul]; norm_num

/-- The pattern of `+inf` denotes +∞. -/
theorem inf_top : Ideal.ofBits .f32 0x7F800000#32 = (⊤ : EReal) := by
  simp [Ideal.ofBits, Ideal.ieee]

/-- An extended real whose absolute value is below +∞ is a real number. -/
theorem real_of_abs_lt (v : EReal) (h : FloatOps.cmpf (F := Ideal) (φ := .f32) .olt (FloatOps.hostAbsf (F := Ideal) (φ := .f32) v) (Ideal.ofBits .f32 0x7F800000#32) = 1#1) :
    ∃ r : ℝ, v = (r : EReal) := by
  rw [inf_top] at h
  induction v using EReal.rec with
  | bot => exfalso; revert h; simp [FloatOps.cmpf, FloatOps.hostAbsf, FloatOps.absf, Ideal.cmp]
  | coe r => exact ⟨r, rfl⟩
  | top => exfalso; revert h; simp [FloatOps.cmpf, FloatOps.hostAbsf, FloatOps.absf, Ideal.cmp]

/-- A word that is non-negative and below 4096 as a signed integer is the word of a position on an axis of extent 4096. -/
theorem pos_of_signed (w : BitVec 32) (h0 : IntOp.cmpi .sge w 0#32 = 1#1) (h1 : IntOp.cmpi .slt w 4096#32 = 1#1) :
    ∃ j : Fin 4096, w = BitVec.ofNat 32 j.val := by
  rw [IntOp.cmpi_sge] at h0
  rw [IntOp.cmpi_slt] at h1
  have e0 : (0#32 : BitVec 32).toInt = 0 := by decide
  have e1 : (4096#32 : BitVec 32).toInt = 4096 := by decide
  rw [e0] at h0; rw [e1] at h1
  have hw := w.isLt
  have hlt : w.toNat < 4096 := by
    unfold BitVec.toInt at h0 h1
    split at h1 <;> omega
  exact ⟨⟨w.toNat, hlt⟩, by simp⟩

/-- THE DOMAIN: what the precondition says of the four arguments, element by element. -/
theorem decode (x : FVec Ideal S4096x4096 .f32) (il ir : IVec S16384 32) (α : FVec Ideal S16384x3 .f32)
    (h : fn (F := Ideal) x il ir α = fun _ => 1#1) :
    (∀ i, ∃ r : ℝ, x i = (r : EReal)) ∧ (∀ i, ∃ r : ℝ, α i = (r : EReal))
      ∧ (∀ g, ∃ j : Fin 4096, il g = BitVec.ofNat 32 j.val) ∧ (∀ g, ∃ j : Fin 4096, ir g = BitVec.ofNat 32 j.val) := by
  have e := congrFun h ix0
  dsimp only [fn, fn_part1] at e
  simp only [andi, IntOp.andi_eq_one] at e
  obtain ⟨⟨⟨ex, eα⟩, el⟩, er⟩ := e
  refine ⟨fun i => ?_, fun i => ?_, fun g => ?_, fun g => ?_⟩
  · exact real_of_abs_lt _ (Host.reduce_andi_all _ _ _ _ ix0 ex i)
  · exact real_of_abs_lt _ (Host.reduce_andi_all _ _ _ _ ix0 eα i)
  · have := Host.reduce_andi_all _ _ _ _ ix0 el g
    obtain ⟨a, b⟩ := IntOp.andi_eq_one.1 this
    exact pos_of_signed _ a b
  · have := Host.reduce_andi_all _ _ _ _ ix0 er g
    obtain ⟨a, b⟩ := IntOp.andi_eq_one.1 this
    exact pos_of_signed _ a b

end Cert.PreFacts

end
-- ==== Proof.Bridge.lean ====
/-
  The bridge between the kernel's function of the arguments and the reference's, and the kernel's run read at it.
-/
import proofs.«412888_j28200755265636_1_alg».proof.Proof.Coefficients
import proofs.«412888_j28200755265636_1_alg».proof.Proof.RefEntry
import proofs.«412888_j28200755265636_1_alg».proof.Proof.Softmax
import proofs.«412888_j28200755265636_1_alg».proof.Proof.GateLaw
import proofs.«412888_j28200755265636_1_alg».proof.Proof.Domain

noncomputable section

namespace Cert.Gate

open Idealize.ShloMosaic Idealize.ShloMosaic.ValueIdx
open Cert.KernelIdeal

/-- THE BRIDGE. On finite tables and logits and gather words that are positions of the table's columns, the gate layer
    the kernel computes — of the table, the two rows of words and the two coefficient rows — is the reference's result,
    entry by entry: each indicator product picks the column the reference gathers, and the law regroups the mixture. -/
theorem bridge (x : S4096x4096.Idx → EReal) (il ir : S16384.Idx → BitVec 32) (α : S16384x3.Idx → EReal)
    (hx : ∀ i, ∃ r : ℝ, x i = (r : EReal)) (hα : ∀ i, ∃ r : ℝ, α i = (r : EReal))
    (hl : ∀ g, ∃ j : Fin 4096, il g = BitVec.ofNat 32 j.val) (hr : ∀ g, ∃ j : Fin 4096, ir g = BitVec.ofNat 32 j.val) :
    gate x (shapeCast S1x16384 il Gen.shapeCasts_S16384_S1x16384) (shapeCast S1x16384 ir Gen.shapeCasts_S16384_S1x16384)
        (c1row (Cert.ReferenceIdeal.Read.val_main_v25 (F := Ideal) α)) (c2row (Cert.ReferenceIdeal.Read.val_main_v25 (F := Ideal) α))
      = Cert.ReferenceIdeal.Read.val_main_v47 (F := Ideal) x il ir α := by
  funext i
  obtain ⟨p, q, rfl⟩ : ∃ (p : Fin 4096) (q : Fin 16384), i = ix2 p q := ⟨i 0, i 1, eq_ix2 i⟩
  obtain ⟨jl, hjl⟩ := hl (ix1 q)
  obtain ⟨jr, hjr⟩ := hr (ix1 q)
  obtain ⟨a, ha⟩ := hx (ix2 p jl)
  obtain ⟨b, hb⟩ := hx (ix2 p jr)
  obtain ⟨w0, hw0⟩ := weights_real α hα q 0
  obtain ⟨w1, hw1⟩ := weights_real α hα q 1
  obtain ⟨w2, hw2⟩ := weights_real α hα q 2
  have hgl : Cert.ReferenceIdeal.Read.val_main_v6 (F := Ideal) x il (ix2 p q) = x (ix2 p jl) := gather_l x il (ix2 p q) jl hjl
  have hgr : Cert.ReferenceIdeal.Read.val_main_v13 (F := Ideal) x ir (ix2 p q) = x (ix2 p jr) := gather_r x ir (ix2 p q) jr hjr
  have hre := ref_entry x il ir α (ix2 p q)
  rw [hgl, hgr] at hre
  refine Eq.trans ?_ hre.symm
  show c1row _ (ix2 (0 : Fin 1) q) * (pick (fun k : Fin 4096 => x (ix2 p k)) (shapeCast S1x16384 il Gen.shapeCasts_S16384_S1x16384 (ix2 (0 : Fin 1) q))
        * pick (fun k : Fin 4096 => x (ix2 p k)) (shapeCast S1x16384 ir Gen.shapeCasts_S16384_S1x16384 (ix2 (0 : Fin 1) q)))
      + c2row _ (ix2 (0 : Fin 1) q) * (pick (fun k : Fin 4096 => x (ix2 p k)) (shapeCast S1x16384 il Gen.shapeCasts_S16384_S1x16384 (ix2 (0 : Fin 1) q))
        + pick (fun k : Fin 4096 => x (ix2 p k)) (shapeCast S1x16384 ir Gen.shapeCasts_S16384_S1x16384 (ix2 (0 : Fin 1) q))) = _
  rw [row_apply, row_apply, c1row_apply, c2row_apply, hjl, hjr]
  unfold pick
  rw [sum_indicator (by decide) (fun k : Fin 4096 => x (ix2 p k)) jl, sum_indicator (by decide) (fun k : Fin 4096 => x (ix2 p k)) jr]
  show _ = Cert.ReferenceIdeal.Read.val_main_v25 (F := Ideal) α (ix2 q 0) * _ + Cert.ReferenceIdeal.Read.val_main_v25 (F := Ideal) α (ix2 q 1) * _
      + Cert.ReferenceIdeal.Read.val_main_v25 (F := Ideal) α (ix2 q 2) * _
  rw [ha, hb, hw0, hw1, hw2, Cert.PreFacts.two_real]
  exact gate_law w0 w1 w2 a b 2

variable (m : (ℓ : Loc nD τ sig) → Buf (Elt Ideal) ℓ) (ρ : Dev nD → PrngReg)

open Idealize.ShloMosaic.TcCoe Idealize.SL.Sem Cert.KernelIdeal.Gen in
/-- The kernel's run, read: the result array ends at the gate layer of the ARGUMENTS — the table, the two index vectors
    laid out as rows, and the two coefficient rows of the logits' softmax —, the arguments unchanged. -/
theorem run : θ_run defs (onTc (τ := τ) (main (F := Ideal))) ⟨m, fun _ => 0, ρ⟩ fun r => ∀ c : Dev nD,
      r.2.mem ((c : Thread nD τ).loc main_v30)
        = gate (m ((c : Thread nD τ).loc main_arg0))
            (shapeCast S1x16384 (m ((c : Thread nD τ).loc main_arg1)) Gen.shapeCasts_S16384_S1x16384)
            (shapeCast S1x16384 (m ((c : Thread nD τ).loc main_arg2)) Gen.shapeCasts_S16384_S1x16384)
            (c1row (Cert.ReferenceIdeal.Read.val_main_v25 (F := Ideal) (m ((c : Thread nD τ).loc main_arg3))))
            (c2row (Cert.ReferenceIdeal.Read.val_main_v25 (F := Ideal) (m ((c : Thread nD τ).loc main_arg3))))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by rw [V_main_arg0, V_il, V_ir, V_c1, V_c2])), (h c).2⟩)
    (Cert.KernelIdeal.Value.run_blocks m ρ)

end Cert.Gate

end
-- ==== Proof.lean ====
/- The proof of `Cert.Claim`: the gate layer `y = w0·ab + w1·(a + b − ab) + w2·(a + b − 2ab)`, where `a` and `b` are
   the columns `idx_l[g]` and `idx_r[g]` of the table `x` and `w = softmax(alpha[g])`, computed two ways.
   The kernel picks each column by multiplying the table's rows with an indicator column built from the gather word
   (Proof/GateBlock.lean: the product keeps exactly the entry the word names), and combines the two picks with the
   coefficients `c1 = w0 − w1 − 2·w2` and `c2 = w1 + w2` that the host computes from the softmax (Proof/Coefficients.lean);
   block by block this fills the whole result array with ONE function of the arguments (Proof/KernelArray.lean).
   The reference gathers the two columns (Proof/LibGatherColsCol.lean, Proof/RefEntry.lean) and mixes the three soft gates.
   On the stated domain — finite table and logits, gather words that are positions of the table's columns — the
   softmax weights are real numbers (Proof/Softmax.lean), every factor is a real number, and the two mixtures are equal
   by regrouping (Proof/GateLaw.lean); Proof/Bridge.lean puts the pieces together entry by entry.
   Proof/Domain.lean reads the three facts out of the stated precondition. -/
import proofs.«412888_j28200755265636_1_alg».proof.Defs
import proofs.«412888_j28200755265636_1_alg».proof.Proof.Gen.Kernel
import proofs.«412888_j28200755265636_1_alg».proof.Proof.Gen.Kernel.Skeleton
import proofs.«412888_j28200755265636_1_alg».proof.Proof.Gen.Kernel.Launch
import proofs.«412888_j28200755265636_1_alg».proof.Proof.Gen.Kernel.Points
import proofs.«412888_j28200755265636_1_alg».proof.Proof.Gen.Kernel.Frame
import proofs.«412888_j28200755265636_1_alg».proof.Proof.Gen.KernelIdeal
import proofs.«412888_j28200755265636_1_alg».proof.Proof.Gen.KernelIdeal.Skeleton
import proofs.«412888_j28200755265636_1_alg».proof.Proof.Gen.KernelIdeal.Launch
import proofs.«412888_j28200755265636_1_alg».proof.Proof.Gen.KernelIdeal.Points
import proofs.«412888_j28200755265636_1_alg».proof.Proof.Gen.KernelIdeal.Frame
import proofs.«412888_j28200755265636_1_alg».proof.Proof.Gen.ReferenceIdeal
import proofs.«412888_j28200755265636_1_alg».proof.Proof.Gen.Pre_finite_inputs
import proofs.«412888_j28200755265636_1_alg».proof.Proof.Gen.KernelIdeal.Value
import proofs.«412888_j28200755265636_1_alg».proof.Proof.Gen.ReferenceIdeal.Run
import proofs.«412888_j28200755265636_1_alg».proof.Proof.Gen.ReferenceIdeal.Read
import proofs.«412888_j28200755265636_1_alg».proof.Proof.Bridge
import Idealize.ShloMosaic.Adequacy
import Idealize.ShloMosaic.Init

noncomputable section

namespace Cert.Proof

open Idealize.ShloMosaic Idealize.SL.Sem

/-- The word-level kernel runs and leaves its arguments as they were: the generated frame. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference runs and leaves its arguments as they were: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments and satisfy the precondition, both programs end with the same result:
    the kernel's array is the gate layer of the arguments (`Cert.Gate.run`), the reference's its composed term
    (the generated run), and on the stated domain the two are one function (`Cert.Gate.bridge`). -/
theorem algebraic : Cert.algebraic_KernelIdeal_ReferenceIdeal := by
  intro m ρ m' ρ' hpre hagree
  refine ⟨_, Cert.Gate.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.1, (hagree c).2.2.1, (hagree c).2.2.2]
  obtain ⟨hx, hα, hl, hr⟩ := Cert.PreFacts.decode _ _ _ _ (hpre c)
  exact (Cert.Gate.bridge _ _ _ _ hx hα hl hr).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
